-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000x2 : Shape := ⟨2, ![600000, 2]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000x2 : S_.BroadcastsInDim S600000x2 (![] : Fin 0 → Fin S600000x2.rank)
  reducesTo_S600000x2_S_d0_1 : S600000x2.ReducesTo [0, 1] S_

variable [Facts]

def fn_part2 {F : FTy → Type} [FloatOps F] (main_v28 : IVec S_ 1) (main_v33 : IVec S600000x2 1) : IVec S_ 1 :=
  let main_c_12 : IVec S_ 1 := constantI S_ 1 1#1
  let main_v34 : IVec S_ 1 := (fun x v => Host.reduce IntOp.andi x v reducesTo_S600000x2_S_d0_1 h_S_) main_v33 main_c_12
  let main_v35 : IVec S_ 1 := andi main_v28 main_v34
  main_v35

def fn_part1 {F : FTy → Type} [FloatOps F] (main_arg2 : IVec S600000x2 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S600000x2 32 := broadcastInDim S600000x2 ![] bcast_S_S600000x2 main_c_10
  let main_v30 : IVec S600000x2 1 := cmpi .sge main_arg2 main_v29
  let main_c_11 : IVec S_ 32 := constantI S_ 32 50000#32
  let main_v31 : IVec S600000x2 32 := broadcastInDim S600000x2 ![] bcast_S_S600000x2 main_c_11
  let main_v32 : IVec S600000x2 1 := cmpi .slt main_arg2 main_v31
  let main_v33 : IVec S600000x2 1 := andi main_v30 main_v32
  fn_part2 (F := F) main_v28 main_v33

def fn {F : FTy → Type} [FloatOps F] (main_arg0 : FVec F S50000x128 .f32) (main_arg1 : FVec F S600000x128 .f32) (main_arg2 : IVec S600000x2 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S50000x128 : Shape := ⟨2, ![50000, 128]⟩
abbrev S600000x128 : Shape := ⟨2, ![600000, 128]⟩
abbrev S600000x2 : Shape := ⟨2, ![600000, 2]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S600000x1 : Shape := ⟨2, ![600000, 1]⟩
abbrev S600000 : Shape := ⟨1, ![600000]⟩
abbrev S_ : Shape := ⟨0, ![]⟩
abbrev S1 : Shape := ⟨1, ![1]⟩
abbrev S1x1 : Shape := ⟨2, ![1, 1]⟩
abbrev S6000x128 : Shape := ⟨2, ![6000, 128]⟩

abbrev nBuf : Space → Nat
  | .hbm => 68
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000x2, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S1x128, .f32⟩
  | .hbm, ⟨10, _⟩ => ⟨S50000x128, .f32⟩
  | .hbm, ⟨11, _⟩ => ⟨S600000x1, .i32⟩
  | .hbm, ⟨12, _⟩ => ⟨S600000, .i32⟩
  | .hbm, ⟨13, _⟩ => ⟨S600000x1, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S1, .i32⟩
  | .hbm, ⟨24, _⟩ => ⟨S_, .i32⟩
  | .hbm, ⟨25, _⟩ => ⟨S600000x1, .i32⟩
  | .hbm, ⟨26, _⟩ => ⟨S600000x1, .i1⟩
  | .hbm, ⟨27, _⟩ => ⟨S1x1, .i32⟩
  | .hbm, ⟨28, _⟩ => ⟨S600000x1, .i32⟩
  | .hbm, ⟨29, _⟩ => ⟨S600000x1, .i1⟩
  | .hbm, ⟨30, _⟩ => ⟨S600000x1, .i1⟩
  | .hbm, ⟨31, _⟩ => ⟨S_, .i1⟩
  | .hbm, ⟨32, _⟩ => ⟨S600000, .i1⟩
  | .hbm, ⟨33, _⟩ => ⟨S600000x128, .f32⟩
  | .hbm, ⟨34, _⟩ => ⟨S600000x128, .i1⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S1, .i32⟩
  | .hbm, ⟨47, _⟩ => ⟨S_, .i32⟩
  | .hbm, ⟨48, _⟩ => ⟨S600000x1, .i32⟩
  | .hbm, ⟨49, _⟩ => ⟨S600000x1, .i1⟩
  | .hbm, ⟨50, _⟩ => ⟨S1x1, .i32⟩
  | .hbm, ⟨51, _⟩ => ⟨S600000x1, .i32⟩
  | .hbm, ⟨52, _⟩ => ⟨S600000x1, .i1⟩
  | .hbm, ⟨53, _⟩ => ⟨S600000x1, .i1⟩
  | .hbm, ⟨54, _⟩ => ⟨S_, .i1⟩
  | .hbm, ⟨55, _⟩ => ⟨S600000, .i1⟩
  | .hbm, ⟨56, _⟩ => ⟨S600000x128, .f32⟩
  | .hbm, ⟨57, _⟩ => ⟨S600000x128, .i1⟩
  | .hbm, ⟨58, _⟩ => ⟨S_, .f32⟩
  | .hbm, ⟨59, _⟩ => ⟨S600000x128, .f32⟩
  | .hbm, ⟨60, _⟩ => ⟨S600000x128, .f32⟩
  | .hbm, ⟨61, _⟩ => ⟨S1x128, .f32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S6000x128, .f32⟩
  | .local _ .vmem, ⟨7, _⟩ => ⟨S6000x128, .f32⟩
  | .local _ .vmem, ⟨8, _⟩ => ⟨S128x128, .f32⟩
  | .local _ .vmem, ⟨9, _⟩ => ⟨S1x128, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S6000x128, .f32⟩
  | .local _ .vmem, ⟨14, _⟩ => ⟨S6000x128, .f32⟩
  | .local _ .vmem, ⟨15, _⟩ => ⟨S6000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S6000x128_S6000x128_0_0 : ∀ a, (![0, 0] : Fin 2 → Nat) a + S6000x128.size a ≤ S6000x128.size a
  h_S6000x128 : 0 < S6000x128.numel
  broadcasts_S1x128_S6000x128 : S1x128.Broadcasts S6000x128
  shapeCasts_S6000x128_S6000x128 : S6000x128.ShapeCasts S6000x128
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x128.size a ≤ S600000x128.size a
  hwx1_4 : ∀ i : grid1.Coords, EltTy.bits .f32 = 32 ∨ (Rect.block (s := S600000x128) S6000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x128.size a ≤ S600000x128.size a
  hwx1_5 : ∀ i : grid1.Coords, EltTy.bits .f32 = 32 ∨ (Rect.block (s := S600000x128) S6000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S6000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S6000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S6000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000x2 : Shape := ⟨2, ![600000, 2]⟩
abbrev S128x128 : Shape := ⟨2, ![128, 128]⟩
abbrev S128 : Shape := ⟨1, ![128]⟩
abbrev S1x128 : Shape := ⟨2, ![1, 128]⟩
abbrev S600000x1 : Shape := ⟨2, ![600000, 1]⟩
abbrev S600000 : Shape := ⟨1, ![600000]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000x2, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S128x128, .f32⟩
  | .hbm, ⟨13, _⟩ => ⟨S600000x128, .f32⟩
  | .hbm, ⟨14, _⟩ => ⟨S1x128, .f32⟩
  | .hbm, ⟨15, _⟩ => ⟨S600000x128, .f32⟩
  | .hbm, ⟨16, _⟩ => ⟨S600000x128, .f32⟩
  | .hbm, ⟨17, _⟩ => ⟨S600000x1, .i32⟩
  | .hbm, ⟨18, _⟩ => ⟨S600000, .i32⟩
  | .hbm, ⟨19, _⟩ => ⟨S600000x1, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_cst : Ref sig .tc := ⟨.hbm, 48, rfl⟩
abbrev main_call1_v0 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Take.lean ====
/-
  Row lookup by edge endpoint, as the kernel program's host code spells it, and what it is when every endpoint is a
  node number.

  An endpoint word `s e` is first wrapped (a negative word has 50000 added), then the table's row at the wrapped
  word is gathered, and the gathered row is kept only where the wrapped word lies in 0 … 49999; elsewhere the row is
  filled with a fixed pattern. When every endpoint word already lies in 0 … 49999 the wrap changes nothing, the test
  holds on every row, and the lookup IS the plain gather at the wrapped words: the fill is never used.
  The two endpoint columns are the two columns of the 600000 × 2 edge list; an entry of a column is the edge list's
  entry in that row and column, so a bound on every entry of the edge list bounds every entry of both columns. The
  bound itself is what the certificate's precondition says of the edge list, read off its printed form.
-/
import proofs.«420025_j91104846283471_1_alg».proof.Proof.Gen.KernelIdeal
import proofs.«420025_j91104846283471_1_alg».proof.Proof.Gen.Pre_finite_inputs
import Idealize.ShloMosaic.PureOps.Ideal
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Take

open Cert.KernelIdeal Cert.KernelIdeal.Gen Idealize.ShloMosaic

variable {F : FTy → Type} [FloatOps F]

/-- Column `0` of the edge list: the source endpoint of every edge. -/
def srcCol (ei : IVec S600000x2 32) : IVec S600000 32 :=
  shapeCast S600000 (extractStridedSlice S600000x1 ![0, 0] ei slices_S600000x2_S600000x1_0_0) shapeCasts_S600000x1_S600000

/-- Column `1` of the edge list: the target endpoint of every edge. -/
def dstCol (ei : IVec S600000x2 32) : IVec S600000 32 :=
  shapeCast S600000 (extractStridedSlice S600000x1 ![0, 1] ei slices_S600000x2_S600000x1_0_1) shapeCasts_S600000x1_S600000

/-- The wrapped endpoint words as a one-column index array: a negative word has 50000 added. -/
def wrapIdx (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- Which rows keep their gathered value: the wrapped word is at least 0 and at most 49999. -/
def inRange (s : IVec S600000 32) : IVec S600000 1 :=
  Host.reduce IntOp.andi
    (andi (cmpi .sge (wrapIdx s) (broadcastInDim S600000x1 ![] bcast_S_S600000x1 (constantI S_ 32 0#32)))
      (cmpi .sle (wrapIdx s) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The lookup as the host code spells it: gather at the wrapped words, keep where in range, fill elsewhere. -/
def takeRows (T : FVec F S50000x128 .f32) (s : IVec S600000 32) : FVec F S600000x128 .f32 :=
  select (broadcastInDim S600000x128 ![0] bcast_S600000_S600000x128_0 (inRange s))
    (Host.gather gather_S50000x128_S600000x1_S600000x128_1_0_n_n_0_1_1128 T (wrapIdx s))
    (broadcastInDim S600000x128 ![] bcast_S_S600000x128 (constant S_ .f32 0x7FC00000#32))

/-- Every entry of a word array is a node number: between 0 and 49999 as a signed word. -/
def IsNode {s : Shape} (v : IVec s 32) : Prop := ∀ i : s.Idx, 0 ≤ (v i).toInt ∧ (v i).toInt < 50000

/-- Rank-zero arrays have one index. -/
instance subsingleton_S_Idx : Subsingleton S_.Idx := ⟨fun a b => funext fun d => d.elim0⟩

/-- A word that is at least 0 and below 50000 as the signed compares see it is a node number. -/
theorem word_isNode (w : BitVec 32) (h1 : IntOp.cmpi .sge w 0#32 = 1#1) (h2 : IntOp.cmpi .slt w 50000#32 = 1#1) :
    0 ≤ w.toInt ∧ w.toInt < 50000 := by
  rw [IntOp.cmpi_sge] at h1
  rw [IntOp.cmpi_slt] at h2
  have e0 : (0#32 : BitVec 32).toInt = 0 := by decide
  have e1 : (50000#32 : BitVec 32).toInt = 50000 := by decide
  omega

/-- A node number is not negative: the wrap's test fails on it. -/
theorem slt_zero_of_node (w : BitVec 32) (h : 0 ≤ w.toInt) : ¬ IntOp.cmpi .slt w 0#32 = 1#1 := by
  rw [IntOp.cmpi_slt]
  have e0 : (0#32 : BitVec 32).toInt = 0 := by decide
  omega

/-- A node number passes both range tests. -/
theorem range_of_node (w : BitVec 32) (h : 0 ≤ w.toInt ∧ w.toInt < 50000) :
    IntOp.andi (IntOp.cmpi .sge w 0#32) (IntOp.cmpi .sle w 49999#32) = 1#1 := by
  rw [IntOp.andi_eq_one, IntOp.cmpi_sge, IntOp.cmpi_sle]
  have e0 : (0#32 : BitVec 32).toInt = 0 := by decide
  have e1 : (49999#32 : BitVec 32).toInt = 49999 := by decide
  omega

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    rw [List.foldl_cons]
    exact foldl_andi_one f l _ (IntOp.andi_eq_one.2 ⟨hi, hl a List.mem_cons_self⟩)
      (fun n hn => hl n (List.mem_cons_of_mem _ hn))

/-- With every endpoint a node number the wrap changes nothing: every wrapped word is a node number. -/
theorem isNode_wrapIdx (s : IVec S600000 32) (hs : IsNode s) : IsNode (wrapIdx s) := by
  intro i
  unfold wrapIdx broadcastInDim select Scalar.select
  dsimp only
  rw [if_neg]
  · exact hs _
  · exact slt_zero_of_node _ (hs _).1

/-- With every endpoint a node number every row keeps its gathered value. -/
theorem inRange_eq_one (s : IVec S600000 32) (hs : IsNode s) (j : S600000.Idx) : inRange s j = 1#1 := by
  unfold inRange
  rw [Host.reduce_eq_foldl]
  refine foldl_andi_one _ _ _ rfl (fun i _ => ?_)
  exact range_of_node _ (isNode_wrapIdx s hs i)

/-- With every endpoint a node number the lookup is the plain gather at the wrapped words. -/
theorem takeRows_eq_gather (T : FVec F S50000x128 .f32) (s : IVec S600000 32) (hs : IsNode s) :
    takeRows T s = Host.gather gather_S50000x128_S600000x1_S600000x128_1_0_n_n_0_1_1128 T (wrapIdx s) := by
  funext i
  unfold takeRows select Scalar.select
  dsimp only
  rw [if_pos]
  unfold broadcastInDim
  exact inRange_eq_one s hs _

/-- A bound on every entry of the edge list bounds every source endpoint. -/
theorem isNode_srcCol (ei : IVec S600000x2 32) (h : IsNode ei) : IsNode (srcCol ei) := fun _ => h _

/-- A bound on every entry of the edge list bounds every target endpoint. -/
theorem isNode_dstCol (ei : IVec S600000x2 32) (h : IsNode ei) : IsNode (dstCol ei) := fun _ => h _

/-- The precondition, read: where it holds, every entry of the edge list is a node number. -/
theorem isNode_of_pre (a0 : FVec F S50000x128 .f32) (a1 : FVec F S600000x128 .f32) (a2 : IVec S600000x2 32)
    (a3 : FVec F S128x128 .f32) (a4 : FVec F S128 .f32) (a5 : FVec F S128x128 .f32) (a6 : FVec F S128 .f32)
    (h : Cert.Pre_finite_inputs.fn (F := F) a0 a1 a2 a3 a4 a5 a6 = fun _ => 1#1) : IsNode a2 := by
  intro i
  have h0 := congrFun h ValueIdx.ix0
  dsimp only [Cert.Pre_finite_inputs.fn, Cert.Pre_finite_inputs.fn_part1, Cert.Pre_finite_inputs.fn_part2] at h0
  have hall := (IntOp.andi_eq_one.1 h0).2
  have hi := Host.reduce_andi_all _ _ _ _ _ hall i
  obtain ⟨h1, h2⟩ := IntOp.andi_eq_one.1 hi
  exact word_isNode (a2 i) h1 h2

end Cert.KernelIdeal.Take

end
-- ==== Proof.TakeSrcRead.lean ====
/-
  What the source-endpoint lookup's stretch of host operations leaves in its result buffer, from ANY buffer contents at its
  start: the row lookup `Take.takeRows` of the table buffer's contents at the endpoint buffer's contents. The stretch's
  twenty-three operations are read one after the other, each result at its own buffer; a value stored at a buffer and
  read back from it is the value itself.
-/
import proofs.«420025_j91104846283471_1_alg».proof.Proof.Gen.KernelIdeal.Launch
import proofs.«420025_j91104846283471_1_alg».proof.Proof.Take
import Idealize.ShloMosaic.Lib.StableHlo.Run

set_option maxRecDepth 16384

noncomputable section

namespace Cert.KernelIdeal.TakeSrcRead

open Cert.KernelIdeal Cert.KernelIdeal.Gen Idealize.ShloMosaic Idealize.ShloMosaic.TcCoe Idealize.SL.Sem Idealize.ShloMosaic.StableHlo
open Cert.KernelIdeal.Take

variable {F : FTy → Type} [FloatOps F]

/-- After the stretch, the lookup's result buffer holds the row lookup of the table at the endpoints. -/
theorem result (V : Valuation τ sig (Elt F)) :
    after (hostOps1_1 (F := F)) V (Proc.devRef .tc main_v8)
      = takeRows (V (Proc.devRef .tc main_v3)) (V (Proc.devRef .tc main_v5)) := by
  simp only [hostOps1_1]
  after_results_simp
  unfold takeRows inRange wrapIdx
  simp only [TRef.ofBuf, TRef.toBuf, cast_cast, cast_eq]

end Cert.KernelIdeal.TakeSrcRead

end
-- ==== Proof.TakeDstRead.lean ====
/-
  What the target-endpoint lookup's stretch of host operations leaves in its result buffer, from ANY buffer contents at its
  start: the row lookup `Take.takeRows` of the table buffer's contents at the endpoint buffer's contents. The stretch's
  twenty-three operations are read one after the other, each result at its own buffer; a value stored at a buffer and
  read back from it is the value itself.
-/
import proofs.«420025_j91104846283471_1_alg».proof.Proof.Gen.KernelIdeal.Launch
import proofs.«420025_j91104846283471_1_alg».proof.Proof.Take
import proofs.«420025_j91104846283471_1_alg».proof.Proof.TakeSrcRead
import Idealize.ShloMosaic.Lib.StableHlo.Run

set_option maxRecDepth 16384

noncomputable section

namespace Cert.KernelIdeal.TakeDstRead

open Cert.KernelIdeal Cert.KernelIdeal.Gen Idealize.ShloMosaic Idealize.ShloMosaic.TcCoe Idealize.SL.Sem Idealize.ShloMosaic.StableHlo
open Cert.KernelIdeal.Take

variable {F : FTy → Type} [FloatOps F]

/-- After the stretch, the lookup's result buffer holds the row lookup of the table at the endpoints. -/
theorem result (V : Valuation τ sig (Elt F)) :
    after (hostOps1_2 (F := F)) V (Proc.devRef .tc main_v9)
      = takeRows (V (Proc.devRef .tc main_v3)) (V (Proc.devRef .tc main_v7)) := by
  simp only [hostOps1_2]
  after_results_simp
  unfold takeRows inRange wrapIdx
  simp only [TRef.ofBuf, TRef.toBuf, cast_cast, cast_eq]

end Cert.KernelIdeal.TakeDstRead

end
-- ==== Proof.Chain.lean ====
/-
  The buffer contents of the idealized kernel program at each boundary between its stretches of host operations and
  its three tiled regions, read back to the launch memory.

  The program is: transpose both weights and lay the node bias out as a row; REGION 0 (the node linear layer);
  split the edge list into its two endpoint columns; look the linear layer's rows up at the source endpoints and at
  the target endpoints; lay the edge bias out as a row; REGION 1 (the edge messages); scatter-add the messages into a
  zero array at the target endpoints; REGION 2 (the positive part). A buffer no operation of a stretch writes keeps its
  contents across it, and a region changes its own output array only. So each array a region reads is a fixed function
  of the launch memory and of the earlier regions' outputs, stated here buffer by buffer.
-/
import proofs.«420025_j91104846283471_1_alg».proof.Proof.Gen.KernelIdeal.Frame
import proofs.«420025_j91104846283471_1_alg».proof.Proof.Take
import proofs.«420025_j91104846283471_1_alg».proof.Proof.TakeSrcRead
import proofs.«420025_j91104846283471_1_alg».proof.Proof.TakeDstRead
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.KernelIdeal.Take

variable {F : FTy → Type} [FloatOps F]
variable (m : (ℓ : Loc nD τ sig) → Buf (Elt F) ℓ) (ρ : Dev nD → PrngReg)

/-! ## Before region 0 -/

theorem W1_arg0 (c : Dev nD) : W1 m ρ c (Proc.devRef .tc main_arg0) = m ((c : Thread nD τ).loc main_arg0) := by
  dsimp only [W1]; simp only [hostOps0]; after_results_simp

/-- The node weight, transposed. -/
theorem W1_v0 (c : Dev nD) : W1 m ρ c (Proc.devRef .tc main_v0)
    = transpose S128x128 [1, 0] (m ((c : Thread nD τ).loc main_arg3)) transposes_S128x128_S128x128_1_0 := by
  dsimp only [W1]; simp only [hostOps0]; after_results_simp

/-- The node bias as one row. -/
theorem W1_v2 (c : Dev nD) : W1 m ρ c (Proc.devRef .tc main_v2)
    = shapeCast S1x128 (m ((c : Thread nD τ).loc main_arg4)) shapeCasts_S128_S1x128 := by
  dsimp only [W1]; simp only [hostOps0]; after_results_simp; rfl

/-- The edge weight, transposed (it waits for region 1). -/
theorem W1_v1 (c : Dev nD) : W1 m ρ c (Proc.devRef .tc main_v1)
    = transpose S128x128 [1, 0] (m ((c : Thread nD τ).loc main_arg5)) transposes_S128x128_S128x128_1_0 := by
  dsimp only [W1]; simp only [hostOps0]; after_results_simp

theorem W1_arg1 (c : Dev nD) : W1 m ρ c (Proc.devRef .tc main_arg1) = m ((c : Thread nD τ).loc main_arg1) := by
  dsimp only [W1]; simp only [hostOps0]; after_results_simp
theorem W1_arg2 (c : Dev nD) : W1 m ρ c (Proc.devRef .tc main_arg2) = m ((c : Thread nD τ).loc main_arg2) := by
  dsimp only [W1]; simp only [hostOps0]; after_results_simp
theorem W1_arg6 (c : Dev nD) : W1 m ρ c (Proc.devRef .tc main_arg6) = m ((c : Thread nD τ).loc main_arg6) := by
  dsimp only [W1]; simp only [hostOps0]; after_results_simp

/-! ## After region 0: its output array is what the pipeline leaves, every other buffer is as before -/

theorem W2_v3 (c : Dev nD) : W2 m ρ c (Proc.devRef .tc main_v3) = (dat0 (V1 m ρ) c).arrAt 3 cfg0.N := W2_arr m ρ c 3

theorem W2_v1 (c : Dev nD) : W2 m ρ c (Proc.devRef .tc main_v1)
    = transpose S128x128 [1, 0] (m ((c : Thread nD τ).loc main_arg5)) transposes_S128x128_S128x128_1_0 :=
  (W2_of_ne m ρ c main_v1 (by decide)).trans (W1_v1 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Between region 0 and region 1 -/

/-- The source endpoints: column 0 of the edge list. -/
theorem W3_v5 (c : Dev nD) : W3 m ρ c (Proc.devRef .tc main_v5) = srcCol (W2 m ρ c (Proc.devRef .tc main_arg2)) := by
  dsimp only [W3]; simp only [hostOps1]; after_results_simp; rfl
/-- The target endpoints: column 1 of the edge list. -/
theorem W3_v7 (c : Dev nD) : W3 m ρ c (Proc.devRef .tc main_v7) = dstCol (W2 m ρ c (Proc.devRef .tc main_arg2)) := by
  dsimp only [W3]; simp only [hostOps1]; after_results_simp; rfl
theorem W3_v3 (c : Dev nD) : W3 m ρ c (Proc.devRef .tc main_v3) = W2 m ρ c (Proc.devRef .tc main_v3) := by
  dsimp only [W3]; simp only [hostOps1]; after_results_simp
theorem W3_v1 (c : Dev nD) : W3 m ρ c (Proc.devRef .tc main_v1) = W2 m ρ c (Proc.devRef .tc main_v1) := by
  dsimp only [W3]; simp only [hostOps1]; after_results_simp
theorem W3_arg1 (c : Dev nD) : W3 m ρ c (Proc.devRef .tc main_arg1) = W2 m ρ c (Proc.devRef .tc main_arg1) := by
  dsimp only [W3]; simp only [hostOps1]; after_results_simp
theorem W3_arg6 (c : Dev nD) : W3 m ρ c (Proc.devRef .tc main_arg6) = W2 m ρ c (Proc.devRef .tc main_arg6) := by
  dsimp only [W3]; simp only [hostOps1]; after_results_simp

/-- The linear layer's rows at the source endpoints. -/
theorem W4_v8 (c : Dev nD) : W4 m ρ c (Proc.devRef .tc main_v8)
    = takeRows (W2 m ρ c (Proc.devRef .tc main_v3)) (srcCol (W2 m ρ c (Proc.devRef .tc main_arg2))) := by
  show after hostOps1_1 (W3 m ρ c) (Proc.devRef .tc main_v8) = _
  rw [TakeSrcRead.result, W3_v3, W3_v5]

/-- The first lookup's stretch writes neither the table nor the target endpoints. -/
theorem W4_v3 (c : Dev nD) : W4 m ρ c (Proc.devRef .tc main_v3) = W2 m ρ c (Proc.devRef .tc main_v3) := by
  dsimp only [W4, W3]; simp only [hostOps1_1, hostOps1]; after_results_simp
theorem W4_v7 (c : Dev nD) : W4 m ρ c (Proc.devRef .tc main_v7) = dstCol (W2 m ρ c (Proc.devRef .tc main_arg2)) := by
  dsimp only [W4]; simp only [hostOps1_1]; after_results_simp; exact W3_v7 m ρ c

/-- The linear layer's rows at the target endpoints. -/
theorem W5_v9 (c : Dev nD) : W5 m ρ c (Proc.devRef .tc main_v9)
    = takeRows (W2 m ρ c (Proc.devRef .tc main_v3)) (dstCol (W2 m ρ c (Proc.devRef .tc main_arg2))) := by
  show after hostOps1_2 (W4 m ρ c) (Proc.devRef .tc main_v9) = _
  rw [TakeDstRead.result, W4_v3, W4_v7]

/-! ## Buffers the last two stretches before region 1 leave alone, from any contents -/

/-- The target lookup's stretch does not write the source lookup's result. -/
theorem lookup2_keeps_v8 (V : Valuation τ sig (Elt F)) :
    after (hostOps1_2 (F := F)) V (Proc.devRef .tc main_v8) = V (Proc.devRef .tc main_v8) := by
  simp only [hostOps1_2]; after_results_simp
/-- Nor the target endpoints. -/
theorem lookup2_keeps_v7 (V : Valuation τ sig (Elt F)) :
    after (hostOps1_2 (F := F)) V (Proc.devRef .tc main_v7) = V (Proc.devRef .tc main_v7) := by
  simp only [hostOps1_2]; after_results_simp
/-- Laying the edge bias out as a row writes neither lookup's result nor the target endpoints. -/
theorem biasRow_keeps_v8 (V : Valuation τ sig (Elt F)) :
    after (hostOps1_3 (F := F)) V (Proc.devRef .tc main_v8) = V (Proc.devRef .tc main_v8) := by
  simp only [hostOps1_3]; after_results_simp
theorem biasRow_keeps_v9 (V : Valuation τ sig (Elt F)) :
    after (hostOps1_3 (F := F)) V (Proc.devRef .tc main_v9) = V (Proc.devRef .tc main_v9) := by
  simp only [hostOps1_3]; after_results_simp
theorem biasRow_keeps_v7 (V : Valuation τ sig (Elt F)) :
    after (hostOps1_3 (F := F)) V (Proc.devRef .tc main_v7) = V (Proc.devRef .tc main_v7) := by
  simp only [hostOps1_3]; after_results_simp

/-! ## At region 1's entry -/

theorem W6_v8 (c : Dev nD) : W6 m ρ c (Proc.devRef .tc main_v8)
    = takeRows (W2 m ρ c (Proc.devRef .tc main_v3)) (srcCol (m ((c : Thread nD τ).loc main_arg2))) := by
  show after hostOps1_3 (after hostOps1_2 (W4 m ρ c)) (Proc.devRef .tc main_v8) = _
  rw [biasRow_keeps_v8, lookup2_keeps_v8, W4_v8, W2_arg2]
theorem W6_v9 (c : Dev nD) : W6 m ρ c (Proc.devRef .tc main_v9)
    = takeRows (W2 m ρ c (Proc.devRef .tc main_v3)) (dstCol (m ((c : Thread nD τ).loc main_arg2))) := by
  show after hostOps1_3 (W5 m ρ c) (Proc.devRef .tc main_v9) = _
  rw [biasRow_keeps_v9, W5_v9, W2_arg2]
theorem W6_arg1 (c : Dev nD) : W6 m ρ c (Proc.devRef .tc main_arg1) = m ((c : Thread nD τ).loc main_arg1) := by
  dsimp only [W6, W5, W4, W3]; simp only [hostOps1_3, hostOps1_2, hostOps1_1, hostOps1]; after_results_simp
  exact W2_arg1 m ρ c
theorem W6_v1 (c : Dev nD) : W6 m ρ c (Proc.devRef .tc main_v1)
    = transpose S128x128 [1, 0] (m ((c : Thread nD τ).loc main_arg5)) transposes_S128x128_S128x128_1_0 := by
  dsimp only [W6, W5, W4, W3]; simp only [hostOps1_3, hostOps1_2, hostOps1_1, hostOps1]; after_results_simp
  exact W2_v1 m ρ c
/-- The edge bias as one row. -/
theorem W6_v10 (c : Dev nD) : W6 m ρ c (Proc.devRef .tc main_v10)
    = shapeCast S1x128 (m ((c : Thread nD τ).loc main_arg6)) shapeCasts_S128_S1x128 := by
  dsimp only [W6, W5, W4, W3]; simp only [hostOps1_3, hostOps1_2, hostOps1_1, hostOps1]; after_results_simp
  rw [W2_arg6]; rfl
theorem W6_v7 (c : Dev nD) : W6 m ρ c (Proc.devRef .tc main_v7) = dstCol (m ((c : Thread nD τ).loc main_arg2)) := by
  show after hostOps1_3 (after hostOps1_2 (W4 m ρ c)) (Proc.devRef .tc main_v7) = _
  rw [biasRow_keeps_v7, lookup2_keeps_v7, W4_v7, W2_arg2]

/-! ## After region 1, the scatter, and region 2 -/

theorem W7_v11 (c : Dev nD) : W7 m ρ c (Proc.devRef .tc main_v11) = (dat1 (V6 m ρ) c).arrAt 5 cfg1.N := W7_arr m ρ c 5
theorem W7_v7 (c : Dev nD) : W7 m ρ c (Proc.devRef .tc main_v7) = dstCol (m ((c : Thread nD τ).loc main_arg2)) :=
  (W7_of_ne m ρ c main_v7 (by decide)).trans (W6_v7 m ρ c)

/-- The messages scatter-added into a zero array at the target endpoints. -/
theorem W8_v14 (c : Dev nD) : W8 m ρ c (Proc.devRef .tc main_v14)
    = Host.scatterAdd scatter_S50000x128_S600000x1_S600000x128_1_0_0_1
        (broadcastInDim S50000x128 ![] bcast_S_S50000x128 (constant S_ .f32 0x00000000#32))
        (broadcastInDim S600000x1 ![0] bcast_S600000_S600000x1_0 (W7 m ρ c (Proc.devRef .tc main_v7)))
        (W7 m ρ c (Proc.devRef .tc main_v11)) := by
  dsimp only [W8]; simp only [hostOps2]; after_results_simp

theorem W9_v15 (c : Dev nD) : W9 m ρ c (Proc.devRef .tc main_v15) = (dat2 (V8 m ρ) c).arrAt 1 cfg2.N := W9_arr m ρ c 1

end Cert.KernelIdeal.Chain

end
-- ==== Proof.Spec.lean ====
/-
  What the three tiled computations of the message-passing layer hold, element by element, on the extended reals.

  * `linear X Wt b`: row `r` of `X` against column `c` of the (already transposed) weight `Wt`, summed over the 128
    shared coordinates, plus the bias row's entry in column `c`: a linear layer with bias.
  * `message s L d`: the edge message `max ((s + L) + d) 0`: the source node's row, the edge's own linear term and the
    target node's row added in that order, then the positive part.
  * `positivePart a`: `max a 0` at every element.
-/
import Idealize.ShloMosaic.PureOps.Ideal
import Idealize.ShloMosaic.Lib.ValueIdx

noncomputable section

namespace Cert.Spec

open Idealize.ShloMosaic Idealize.ShloMosaic.ValueIdx

/-- A linear layer with bias over `n` rows of width 128, read at one element. -/
def linear {n : Nat} (X : FVec Ideal ⟨2, ![n, 128]⟩ .f32) (Wt : FVec Ideal ⟨2, ![128, 128]⟩ .f32)
    (b : FVec Ideal ⟨2, ![1, 128]⟩ .f32) : FVec Ideal ⟨2, ![n, 128]⟩ .f32 :=
  fun i => (∑ k : Fin 128, X (ix2 (i 0) k) * Wt (ix2 k (i 1))) + b (ix2 (0 : Fin 1) (i 1))

/-- The edge message: source row plus the edge's linear term, plus the target row, then the positive part. -/
def message {n : Nat} (s L d : FVec Ideal ⟨2, ![n, 128]⟩ .f32) : FVec Ideal ⟨2, ![n, 128]⟩ .f32 :=
  fun i => max ((s i + L i) + d i) 0

/-- The positive part, element by element. -/
def positivePart {n : Nat} (a : FVec Ideal ⟨2, ![n, 128]⟩ .f32) : FVec Ideal ⟨2, ![n, 128]⟩ .f32 :=
  fun i => max (a i) 0

end Cert.Spec

end
-- ==== Proof.Region0.lean ====
/-
  The first tiled computation of the layer: a linear map with bias over the 50000 node rows.

  The rows are cut into ten blocks of 5000. Grid point `t` owns rows `5000·t … 5000·t + 4999` of the result, all 128
  columns of them, and reads the same rows of the node array, the whole transposed weight and the one bias row.
  Entry `(r, c)` of the result depends only on row `r` of the node array, column `c` of the transposed weight and entry
  `c` of the bias row: it is `Σ_k X[r, k] · Wt[k, c] + b[0, c]`. On the extended reals narrowing the two factors before
  the product changes nothing and the products accumulate onto zero, so an entry of a block is that sum read at the
  block's own rows. The ten blocks tile the rows, so the whole result is the linear layer of the arrays the region finds.
-/
import proofs.«420025_j91104846283471_1_alg».proof.Proof.Gen.KernelIdeal.Frame
import proofs.«420025_j91104846283471_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of a block -/

/-- The left factor of the product is read at the entry's own row … -/
theorem left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summed coordinate along its columns; -/
theorem left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right factor at the summed coordinate along its rows … -/
theorem right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the entry's own column. -/
theorem right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a row block with the weight, accumulated onto zero, at entry `(p, q)`: the sum over the 128 shared
    coordinates of the row's entries times the column's. -/
theorem product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun b => Fin.ext (by
    match b with
    | ⟨0, _⟩ => exact left_row _ _
    | ⟨1, _⟩ => exact (left_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun b => Fin.ext (by
    match b with
    | ⟨0, _⟩ => exact (right_row _ _).trans hk
    | ⟨1, _⟩ => exact right_col _ _)
  rw [el, er]

/-- The bias row spread over the 5000 rows of a block reads entry `q` of the row in column `q`. -/
theorem bias_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- What the body stores, at entry `(p, q)` of its block: the row of the node block against the column of the weight,
    plus the bias entry of the column. -/
theorem stored_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  simp only [shapeCast_self]
  refine (addf_apply _ _ (ix2 p q)).trans ?_
  refine congrArg₂ (· + ·) ((product_apply _ _ p q).trans ?_) (bias_apply x2 p q)
  rfl

/-- The linear layer at entry `(r, q)`. -/
theorem linear_apply {n : Nat} (X : FVec Ideal ⟨2, ![n, 128]⟩ .f32) (Wt : FVec Ideal ⟨2, ![128, 128]⟩ .f32)
    (b : FVec Ideal ⟨2, ![1, 128]⟩ .f32) (r : Fin n) (q : Fin 128) :
    Cert.Spec.linear X Wt b (ix2 r q) = (∑ k : Fin 128, X (ix2 r k) * Wt (ix2 k q)) + b (ix2 (0 : Fin 1) q) := rfl

/-! ## From the blocks to the array -/

theorem zero_offsets : (![0, 0] : Fin 2 → Nat) = fun _ => 0 := funext fun a => by fin_cases a <;> rfl

/-- Which block of its array each window holds at point `t`: the node rows and the result rows move with the point, the
    weight and the bias stay whole; and there are ten points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ t.val < 10 :=
  (by decide +kernel : ∀ t : Fin grid0.N, _)

/-- Every one of the ten row blocks of the result is some point's. -/
theorem block_onto : ∀ r : Fin 10, ∃ t : Fin cfg0.N, win0_3.index t (0 : Fin 2) = r.val ∧ win0_3.index t (1 : Fin 2) = 0 :=
  (by decide +kernel : ∀ r : Fin 10, ∃ t : Fin grid0.N, win0_3.index t (0 : Fin 2) = r.val ∧ win0_3.index t (1 : Fin 2) = 0)

section
variable (V : (c : Dev nD) → (b : Ref sig .tc) → Buf (Elt Ideal) ((c : Thread nD τ).loc b)) (c : Dev nD)

/-- Row `p` of the node block at point `t` is row `5000·t + p` of the node array. -/
theorem node_block (t : Fin cfg0.N) (p : Fin 5000) (k : Fin 128) (r : Fin 50000) (hr : r.val = 5000 * t.val + p.val) :
    (iblk0 V c 0 t : Vec Ideal S5000x128 .f32) (ix2 p k) = (V c main_arg0 : S50000x128.Idx → Elt Ideal .f32) (ix2 r k) := by
  obtain ⟨e0, e1, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block at any point is the whole transposed weight. -/
theorem weight_block (t : Fin cfg0.N) (k : Fin 128) (q : Fin 128) :
    (iblk0 V c 1 t : Vec Ideal S128x128 .f32) (ix2 k q) = (V c main_v0 : S128x128.Idx → Elt Ideal .f32) (ix2 k q) := by
  obtain ⟨-, -, e0, e1, -⟩ := block_indices t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias block at any point is the whole bias row. -/
theorem bias_block (t : Fin cfg0.N) (z : Fin 1) (q : Fin 128) :
    (iblk0 V c 2 t : Vec Ideal S1x128 .f32) (ix2 z q) = (V c main_v2 : S1x128.Idx → Elt Ideal .f32) (ix2 z q) := by
  obtain ⟨-, -, -, -, e0, e1, -⟩ := block_indices t
  show V c main_v2 (((cfg0.win 2).blk t).view.emb (ix2 z q)) = V c main_v2 (ix2 z q)
  refine congrArg (V c main_v2) (funext fun a => Fin.ext ?_)
  match a with
  | ⟨0, _⟩ => show win0_2.index t (0 : Fin 2) * 1 + 1 * z.val = z.val; omega
  | ⟨1, _⟩ => show win0_2.index t (1 : Fin 2) * 128 + 1 * q.val = q.val; omega

/-- Entry `(p, q)` of the result block at point `t` sits at row `5000·t + p`, column `q` of the result array. -/
theorem result_block_emb (t : Fin cfg0.N) (p : Fin 5000) (q : Fin 128) (r : Fin 50000) (hr : r.val = 5000 * t.val + p.val) :
    (((cfg0.win 3).blk t).view.emb (ix2 p q) : S50000x128.Idx) = ix2 r q := by
  obtain ⟨-, -, -, -, -, -, e0, e1, -⟩ := block_indices t
  funext a; apply Fin.ext
  match a with
  | ⟨0, _⟩ => show win0_3.index t (0 : Fin 2) * 5000 + 1 * p.val = r.val; omega
  | ⟨1, _⟩ => show win0_3.index t (1 : Fin 2) * 128 + 1 * q.val = q.val; omega

/-- What point `t` writes back is block `t` of the linear layer of the arrays the region finds. -/
theorem written_block (t : Fin cfg0.N) :
    (dat0 (F := Ideal) V c).flushed 3 t
      = ((cfg0.win 3).blk t).view.read (Elt Ideal) (Cert.Spec.linear (V c main_arg0) (V c main_v0) (V c main_v2)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  obtain ⟨-, -, -, -, -, -, -, -, ht⟩ := block_indices t
  have hr : 5000 * t.val + p.val < 50000 := by have := p.isLt; omega
  refine (stored_apply (iblk0 V c 0 t) (iblk0 V c 1 t) (iblk0 V c 2 t) p q).trans ?_
  show _ = Cert.Spec.linear (V c main_arg0) (V c main_v0) (V c main_v2) (((cfg0.win 3).blk t).view.emb (ix2 p q))
  rw [result_block_emb t p q ⟨5000 * t.val + p.val, hr⟩ rfl, linear_apply]
  exact congrArg₂ (· + ·)
    (Finset.sum_congr rfl fun k _ => congrArg₂ (· * ·) (node_block V c t p k ⟨5000 * t.val + p.val, hr⟩ rfl) (weight_block V c t k q))
    (bias_block V c t 0 q)

/-- An index of the result array is in point `t`'s block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v3).slice (win0_3.rect t)).set ↔ _
  rw [View.set_slice_whole, Rect.mem_set_unit]
  exact Iff.rfl

/-- Row `r` of the result lies in the block of point `r / 5000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, q0, q1⟩ := block_onto ⟨(i 0).val / 5000, by omega⟩
  have q0' : win0_3.index t (0 : Fin 2) = (i 0).val / 5000 := q0
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end

/-- The result array after the region: the linear layer with bias of the node array, the transposed weight and the bias
    row as the region finds them. -/
theorem value (V : (c : Dev nD) → (b : Ref sig .tc) → Buf (Elt Ideal) ((c : Thread nD τ).loc b)) (c : Dev nD) :
    (dat0 (F := Ideal) V c).arrAt 3 cfg0.N = Cert.Spec.linear (V c main_arg0) (V c main_v0) (V c main_v2) :=
  (dat0 (F := Ideal) V c).arrAt_eq_of_cover 3 (Cert.Spec.linear (V c main_arg0) (V c main_v0) (V c main_v2))
    (fun t _ => written_block V c t) covered

end Cert.KernelIdeal.Region0

end
-- ==== Proof.Region1.lean ====
/-
  The edge-message region, read as one function of the arrays it finds.

  The region walks the 600000 edge rows in 100 steps; step t owns the 6000 rows 6000·t … 6000·t + 5999 of the edge features, of the
  gathered source rows, of the gathered target rows and of the output, all 128 wide, while the transposed weight (128 × 128) and
  the bias row (1 × 128) are held whole at every step. The entry of the output at row r, column q is
  max ((source r q + (Σ_k edge r k · weight k q + bias 0 q)) + target r q) 0: it depends on row r of the edge features, column q of
  the weight, entry q of the bias, and the entries (r, q) of the two gathered arrays. Written block by block, and every row lying in
  exactly the block of step r / 6000, the output array is that function everywhere.
-/
import proofs.«420025_j91104846283471_1_alg».proof.Proof.Gen.KernelIdeal.Frame
import proofs.«420025_j91104846283471_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The body's value at one entry -/

/-- The matrix product reads its left operand in the output's row … -/
theorem lhs_axis0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
/-- … at the summed coordinate; -/
theorem lhs_axis1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
/-- its right operand at the summed coordinate … -/
theorem rhs_axis0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
/-- … in the output's column. -/
theorem rhs_axis1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The matrix product into the zero accumulator, at row `p` and column `q`: the row of the left operand against the
    column of the right one, over the 128 shared coordinates. -/
theorem product_entry {φ₁ φ₂ : FTy} (x : FVec Ideal S6000x128 φ₁) (w : FVec Ideal S128x128 φ₂) (p : Fin 6000) (q : Fin 128) :
    matmul dot_S6000x128_S128x128_S6000x128_1_0_0_1_n_n none x w (constant (F := Ideal) S6000x128 .f32 0x00000000#32) (ix2 p q)
      = ∑ k : Fin 128, x (ix2 p k) * w (ix2 k q) := by
  show FloatOps.matmul _ _ _ _ _ _ = _
  rw [Ideal.matmul_constant_zero_apply, ← Equiv.sum_comp (ValueIdx.contrEquiv1 dot_S6000x128_S128x128_S6000x128_1_0_0_1_n_n 128 rfl rfl).symm]
  refine Finset.sum_congr rfl fun k _ => ?_
  have hk := ValueIdx.contrEquiv1_symm_val dot_S6000x128_S128x128_S6000x128_1_0_0_1_n_n 128 rfl rfl k
  have el : dot_S6000x128_S128x128_S6000x128_1_0_0_1_n_n.lhsIdx (ix2 p q) ((ValueIdx.contrEquiv1 dot_S6000x128_S128x128_S6000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S6000x128_S128x128_S6000x128_1_0_0_1_n_n.rhsIdx (ix2 p q) ((ValueIdx.contrEquiv1 dot_S6000x128_S128x128_S6000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row spread over the 6000 rows reads, in any row, the bias row's entry in that column. -/
theorem bias_entry (b : FVec Ideal S1x128 .f32) (p : Fin 6000) (q : Fin 128) :
    broadcastTo S6000x128 b broadcasts_S1x128_S6000x128 (ix2 p q) = b (ix2 (0 : Fin 1) q) := by
  refine broadcastTo_apply b broadcasts_S1x128_S6000x128 (ix2 p q) (ix2 (0 : Fin 1) q) fun a => ?_
  match a with
  | ⟨0, _⟩ => rfl
  | ⟨1, _⟩ => rfl

/-- What the body stores at row `p`, column `q` of its block, from the blocks it loaded: the source entry plus the edge row
    against the weight column plus the bias entry, plus the target entry, then the positive part. -/
theorem body_entry (x0 : Vec Ideal S6000x128 .f32) (x1 : Vec Ideal S128x128 .f32) (x2 : Vec Ideal S1x128 .f32)
    (x3 : Vec Ideal S6000x128 .f32) (x4 : Vec Ideal S6000x128 .f32) (p : Fin 6000) (q : Fin 128) :
    k1_pay1 x0 x1 x2 x3 x4 (ix2 p q)
      = max ((x3 (ix2 p q) + ((∑ k : Fin 128, x0 (ix2 p k) * x1 (ix2 k q)) + x2 (ix2 (0 : Fin 1) q))) + x4 (ix2 p q)) 0 := by
  unfold k1_pay1
  simp only [shapeCast_self]
  rw [maximumf_apply, addf_apply, addf_apply, addf_apply, product_entry, bias_entry, broadcast_apply]
  simp only [truncf_apply]
  show max _ (Ideal.ofBits .f32 0x00000000#32) = _
  rw [Ideal.ofBits_zero_f32]

/-- One block's entry is the whole-array function's entry in the row the block's row lies in: stated over any arrays and any
    blocks that read them as the windows do (the three row-blocked windows in row `row p` for the block's row `p`, the
    weight and the bias whole). -/
theorem block_entry (E : FVec Ideal ⟨2, ![600000, 128]⟩ .f32) (W : FVec Ideal ⟨2, ![128, 128]⟩ .f32)
    (B : FVec Ideal ⟨2, ![1, 128]⟩ .f32) (S D : FVec Ideal ⟨2, ![600000, 128]⟩ .f32)
    (x0 : Vec Ideal S6000x128 .f32) (x1 : Vec Ideal S128x128 .f32) (x2 : Vec Ideal S1x128 .f32)
    (x3 : Vec Ideal S6000x128 .f32) (x4 : Vec Ideal S6000x128 .f32) (row : Fin 6000 → Fin 600000)
    (h0 : ∀ (p : Fin 6000) (k : Fin 128), x0 (ix2 p k) = E (ix2 (row p) k))
    (h1 : ∀ (k : Fin 128) (q : Fin 128), x1 (ix2 k q) = W (ix2 k q))
    (h2 : ∀ q : Fin 128, x2 (ix2 (0 : Fin 1) q) = B (ix2 (0 : Fin 1) q))
    (h3 : ∀ (p : Fin 6000) (q : Fin 128), x3 (ix2 p q) = S (ix2 (row p) q))
    (h4 : ∀ (p : Fin 6000) (q : Fin 128), x4 (ix2 p q) = D (ix2 (row p) q)) (p : Fin 6000) (q : Fin 128) :
    k1_pay1 x0 x1 x2 x3 x4 (ix2 p q) = Cert.Spec.message S (Cert.Spec.linear E W B) D (ix2 (row p) q) := by
  rw [body_entry, h3, h4, h2]
  simp only [h0, h1]
  rfl

/-! ## From the blocks to the array -/

/-- The output array as the specification states it, of the arrays the region finds. -/
abbrev messages (V : (c : Dev nD) → (b : Ref sig .tc) → Buf (Elt Ideal) ((c : Thread nD τ).loc b)) (c : Dev nD) :
    FVec Ideal ⟨2, ![600000, 128]⟩ .f32 :=
  Cert.Spec.message (V c main_v8) (Cert.Spec.linear (V c main_arg1) (V c main_v1) (V c main_v10)) (V c main_v9)

theorem no_offset : (![0, 0] : Fin 2 → Nat) = fun _ => 0 := funext fun a => by fin_cases a <;> rfl

/-- The block each window shows at step `t`: the row-blocked windows block `t` of the rows, the weight and the bias their
    only block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What step `t` writes back is block `t` of the specification's array. -/
theorem block_written (V : (c : Dev nD) → (b : Ref sig .tc) → Buf (Elt Ideal) ((c : Thread nD τ).loc b)) (c : Dev nD)
    (t : Fin cfg1.N) :
    (dat1 (F := Ideal) V c).flushed 5 t = ((cfg1.win 5).blk t).view.read (Elt Ideal) (messages V c) := by
  show (cfg1.win 5).cut (grid1.coords t) ((dat1 V c).after 5 t) = _
  rw [after1_5]
  unfold out1_5
  rw [View.canon_unit_zero no_offset]
  simp only [View.ld_unit_zero (S := S6000x128) no_offset, View.ld_unit_zero (S := S128x128) no_offset,
    View.ld_unit_zero (S := S1x128) no_offset]
  obtain ⟨e00, e01, e10, e11, e20, e21, e30, e31, e40, e41, e50, e51⟩ := block_indices t
  have ht : t.val < 100 := lt_of_lt_of_eq t.isLt N_1
  refine funext fun (j : S6000x128.Idx) => ?_
  obtain ⟨p, q, rfl⟩ : ∃ (p : Fin 6000) (q : Fin 128), j = ix2 p q := ⟨j 0, j 1, eq_ix2 j⟩
  refine (block_entry (V c main_arg1) (V c main_v1) (V c main_v10) (V c main_v8) (V c main_v9) _ _ _ _ _
    (fun p => ⟨t.val * 6000 + p.val, by have := p.isLt; omega⟩) ?_ ?_ ?_ ?_ ?_ p q).trans ?_
  · intro p k
    show V c main_arg1 (((cfg1.win 0).blk t).view.emb (ix2 p k)) = V c main_arg1 _
    refine congrArg _ (funext fun a => Fin.ext ?_)
    match a with
    | ⟨0, _⟩ => show win1_0.index t (0 : Fin 2) * 6000 + 1 * p.val = t.val * 6000 + p.val; omega
    | ⟨1, _⟩ => show win1_0.index t (1 : Fin 2) * 128 + 1 * k.val = k.val; omega
  · intro k q
    show V c main_v1 (((cfg1.win 1).blk t).view.emb (ix2 k q)) = V c main_v1 _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · intro q
    show V c main_v10 (((cfg1.win 2).blk t).view.emb (ix2 (0 : Fin 1) q)) = V c main_v10 _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · intro p q
    show V c main_v8 (((cfg1.win 3).blk t).view.emb (ix2 p q)) = V c main_v8 _
    refine congrArg _ (funext fun a => Fin.ext ?_)
    match a with
    | ⟨0, _⟩ => show win1_3.index t (0 : Fin 2) * 6000 + 1 * p.val = t.val * 6000 + p.val; omega
    | ⟨1, _⟩ => show win1_3.index t (1 : Fin 2) * 128 + 1 * q.val = q.val; omega
  · intro p q
    show V c main_v9 (((cfg1.win 4).blk t).view.emb (ix2 p q)) = V c main_v9 _
    refine congrArg _ (funext fun a => Fin.ext ?_)
    match a with
    | ⟨0, _⟩ => show win1_4.index t (0 : Fin 2) * 6000 + 1 * p.val = t.val * 6000 + p.val; omega
    | ⟨1, _⟩ => show win1_4.index t (1 : Fin 2) * 128 + 1 * q.val = q.val; omega
  · show messages V c _ = messages V c (((cfg1.win 5).blk t).view.emb (ix2 p q))
    refine congrArg _ (funext fun a => Fin.ext ?_)
    match a with
    | ⟨0, _⟩ => show t.val * 6000 + p.val = win1_5.index t (0 : Fin 2) * 6000 + 1 * p.val; omega
    | ⟨1, _⟩ => show q.val = win1_5.index t (1 : Fin 2) * 128 + 1 * q.val; omega

/-- A row and column of the array lie in step `t`'s block exactly when each lies in the block's range on its axis. -/
theorem mem_block (t : Fin cfg1.N) (i : S600000x128.Idx) :
    i ∈ ((cfg1.win 5).blk t).view.set ↔ ∀ a : Fin 2, win1_5.index t a * S6000x128.size a ≤ (i a).val ∧ (i a).val < win1_5.index t a * S6000x128.size a + S6000x128.size a := by
  show i ∈ ((View.whole main_v11).slice (win1_5.rect t)).set ↔ _
  rw [View.set_slice_whole, Rect.mem_set_unit]
  exact Iff.rfl

/-- Every entry of the array is written by the step that owns its row: row `r` by step `r / 6000`. -/
theorem rows_covered (i : S600000x128.Idx) :
    ∃ t : Fin cfg1.N, (cfg1.win 5).flush t = true ∧ i ∈ ((cfg1.win 5).blk t).view.set := by
  have hi0 : (i 0).val < 600000 := (i 0).isLt
  have hi1 : (i 1).val < 128 := (i 1).isLt
  have hN : cfg1.N = 100 := N_1
  let t : Fin cfg1.N := ⟨(i 0).val / 6000, by rw [hN]; omega⟩
  obtain ⟨-, -, -, -, -, -, -, -, -, -, e50, e51⟩ := block_indices t
  have ht : t.val = (i 0).val / 6000 := rfl
  refine ⟨t, flush1_5 t, ?_⟩
  rw [mem_block]
  intro a
  match a with
  | ⟨0, _⟩ => show win1_5.index t (0 : Fin 2) * 6000 ≤ (i 0).val ∧ (i 0).val < win1_5.index t (0 : Fin 2) * 6000 + 6000; omega
  | ⟨1, _⟩ => show win1_5.index t (1 : Fin 2) * 128 ≤ (i 1).val ∧ (i 1).val < win1_5.index t (1 : Fin 2) * 128 + 128; omega

/-- The output array after the region: the edge messages of the arrays the region found. -/
theorem value (V : (c : Dev nD) → (b : Ref sig .tc) → Buf (Elt Ideal) ((c : Thread nD τ).loc b)) (c : Dev nD) :
    (dat1 (F := Ideal) V c).arrAt 5 cfg1.N
      = Cert.Spec.message (V c main_v8) (Cert.Spec.linear (V c main_arg1) (V c main_v1) (V c main_v10)) (V c main_v9) :=
  (dat1 (F := Ideal) V c).arrAt_eq_of_cover 5 (messages V c) (fun t _ => block_written V c t) rows_covered

end Cert.KernelIdeal.Region1

end
-- ==== Proof.Region2.lean ====
/-
  The last tiled computation of the layer: the positive part of the aggregated node rows.

  The 50000 rows are cut into ten blocks of 5000. Grid point `t` owns rows `5000·t … 5000·t + 4999` of the result, all
  128 columns of them, and reads the same rows of the input. Entry `(r, c)` of the result depends only on entry `(r, c)`
  of the input: it is its maximum with zero. So a block's entry is the positive part read at the block's own rows, and
  since the ten blocks tile the rows the whole result is the positive part of the array the region finds.
-/
import proofs.«420025_j91104846283471_1_alg».proof.Proof.Gen.KernelIdeal.Frame
import proofs.«420025_j91104846283471_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of a block -/

/-- What the body stores, at entry `(p, q)` of its block: the maximum of the input block's entry and zero. -/
theorem stored_apply (x0 : Vec Ideal S5000x128 .f32) (p : Fin 5000) (q : Fin 128) :
    k2_pay1 (F := Ideal) x0 (ix2 p q) = max (x0 (ix2 p q)) 0 := by
  unfold k2_pay1
  simp only [shapeCast_self]
  refine (maximumf_apply _ _ (ix2 p q)).trans ?_
  exact congrArg (max (x0 (ix2 p q))) Ideal.ofBits_zero_f32

/-- The positive part at entry `(r, q)`. -/
theorem positivePart_apply {n : Nat} (a : FVec Ideal ⟨2, ![n, 128]⟩ .f32) (r : Fin n) (q : Fin 128) :
    Cert.Spec.positivePart a (ix2 r q) = max (a (ix2 r q)) 0 := rfl

/-! ## From the blocks to the array -/

theorem zero_offsets : (![0, 0] : Fin 2 → Nat) = fun _ => 0 := funext fun a => by fin_cases a <;> rfl

/-- Which block of its array each window holds at point `t`: the input rows and the result rows both move with the
    point; and there are ten points. -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ t.val < 10 :=
  (by decide +kernel : ∀ t : Fin grid2.N, _)

/-- Every one of the ten row blocks of the result is some point's. -/
theorem block_onto : ∀ r : Fin 10, ∃ t : Fin cfg2.N, win2_1.index t (0 : Fin 2) = r.val ∧ win2_1.index t (1 : Fin 2) = 0 :=
  (by decide +kernel : ∀ r : Fin 10, ∃ t : Fin grid2.N, win2_1.index t (0 : Fin 2) = r.val ∧ win2_1.index t (1 : Fin 2) = 0)

section
variable (V : (c : Dev nD) → (b : Ref sig .tc) → Buf (Elt Ideal) ((c : Thread nD τ).loc b)) (c : Dev nD)

/-- Row `p` of the input block at point `t` is row `5000·t + p` of the input array. -/
theorem input_block (t : Fin cfg2.N) (p : Fin 5000) (q : Fin 128) (r : Fin 50000) (hr : r.val = 5000 * t.val + p.val) :
    (iblk2 V c 0 t : Vec Ideal S5000x128 .f32) (ix2 p q) = (V c main_v14 : S50000x128.Idx → Elt Ideal .f32) (ix2 r q) := by
  obtain ⟨e0, e1, -⟩ := block_indices t
  show V c main_v14 (((cfg2.win 0).blk t).view.emb (ix2 p q)) = V c main_v14 (ix2 r q)
  refine congrArg (V c main_v14) (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

/-- Entry `(p, q)` of the result block at point `t` sits at row `5000·t + p`, column `q` of the result array. -/
theorem result_block_emb (t : Fin cfg2.N) (p : Fin 5000) (q : Fin 128) (r : Fin 50000) (hr : r.val = 5000 * t.val + p.val) :
    (((cfg2.win 1).blk t).view.emb (ix2 p q) : S50000x128.Idx) = ix2 r q := by
  obtain ⟨-, -, e0, e1, -⟩ := block_indices t
  funext a; apply Fin.ext
  match a with
  | ⟨0, _⟩ => show win2_1.index t (0 : Fin 2) * 5000 + 1 * p.val = r.val; omega
  | ⟨1, _⟩ => show win2_1.index t (1 : Fin 2) * 128 + 1 * q.val = q.val; omega

/-- What point `t` writes back is block `t` of the positive part of the array the region finds. -/
theorem written_block (t : Fin cfg2.N) :
    (dat2 (F := Ideal) V c).flushed 1 t
      = ((cfg2.win 1).blk t).view.read (Elt Ideal) (Cert.Spec.positivePart (V c main_v14)) := by
  show (cfg2.win 1).cut (grid2.coords t) ((dat2 (F := Ideal) V c).after 1 t) = _
  rw [after2_1]
  unfold out2_1
  rw [View.canon_unit_zero zero_offsets]
  simp only [View.ld_unit_zero (S := S5000x128) zero_offsets]
  funext j
  obtain ⟨p, q, rfl⟩ : ∃ (p : Fin 5000) (q : Fin 128), j = ix2 p q := ⟨j 0, j 1, eq_ix2 j⟩
  obtain ⟨-, -, -, -, ht⟩ := block_indices t
  have hr : 5000 * t.val + p.val < 50000 := by have := p.isLt; omega
  refine (stored_apply (iblk2 V c 0 t) p q).trans ?_
  show _ = Cert.Spec.positivePart (V c main_v14) (((cfg2.win 1).blk t).view.emb (ix2 p q))
  rw [result_block_emb t p q ⟨5000 * t.val + p.val, hr⟩ rfl, positivePart_apply]
  exact congrArg (fun x => max x 0) (input_block V c t p q ⟨5000 * t.val + p.val, hr⟩ rfl)

/-- An index of the result array is in point `t`'s block iff each coordinate is in the block's range on its axis. -/
theorem mem_block (t : Fin cfg2.N) (i : S50000x128.Idx) :
    i ∈ ((cfg2.win 1).blk t).view.set ↔ ∀ a : Fin 2, win2_1.index t a * S5000x128.size a ≤ (i a).val ∧ (i a).val < win2_1.index t a * S5000x128.size a + S5000x128.size a := by
  show i ∈ ((View.whole main_v15).slice (win2_1.rect t)).set ↔ _
  rw [View.set_slice_whole, Rect.mem_set_unit]
  exact Iff.rfl

/-- Row `r` of the result lies in the block of point `r / 5000`. -/
theorem covered (i : S50000x128.Idx) :
    ∃ t : Fin cfg2.N, (cfg2.win 1).flush t = true ∧ i ∈ ((cfg2.win 1).blk t).view.set := by
  have hi0 : (i 0).val < 50000 := (i 0).isLt
  have hi1 : (i 1).val < 128 := (i 1).isLt
  obtain ⟨t, q0, q1⟩ := block_onto ⟨(i 0).val / 5000, by omega⟩
  have q0' : win2_1.index t (0 : Fin 2) = (i 0).val / 5000 := q0
  refine ⟨t, flush2_1 t, ?_⟩
  rw [mem_block]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 128 ≤ (i 1).val ∧ (i 1).val < win2_1.index t (1 : Fin 2) * 128 + 128; omega

end

/-- The result array after the region: the positive part of the input array as the region finds it. -/
theorem value (V : (c : Dev nD) → (b : Ref sig .tc) → Buf (Elt Ideal) ((c : Thread nD τ).loc b)) (c : Dev nD) :
    (dat2 (F := Ideal) V c).arrAt 1 cfg2.N = Cert.Spec.positivePart (V c main_v14) :=
  (dat2 (F := Ideal) V c).arrAt_eq_of_cover 1 (Cert.Spec.positivePart (V c main_v14))
    (fun t _ => written_block V c t) covered

end Cert.KernelIdeal.Region2

end
-- ==== Proof.KernelValue.lean ====
/-
  The idealized kernel program's result array as ONE function of its seven arguments, on inputs whose edge list holds
  node numbers only.

  Reading the boundaries back (`Chain`) through the three regions' values (`Region0`, `Region1`, `Region2`): the result
  is the positive part of the messages scatter-added at the target endpoints, a message being the positive part of
  (node layer at the source endpoint + edge layer + node layer at the target endpoint). With every endpoint a node number
  each row lookup is the plain gather (`Take.takeRows_eq_gather`): the fill for out-of-range endpoints is never used.
-/
import proofs.«420025_j91104846283471_1_alg».proof.Proof.Chain
import proofs.«420025_j91104846283471_1_alg».proof.Proof.Region0
import proofs.«420025_j91104846283471_1_alg».proof.Proof.Region1
import proofs.«420025_j91104846283471_1_alg».proof.Proof.Region2

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Cert.KernelIdeal.Take

/-- The node layer: a linear layer with bias of the node features. -/
def nodeLayer (x0 : FVec Ideal S50000x128 .f32) (w3 : FVec Ideal S128x128 .f32) (b4 : FVec Ideal S128 .f32) :
    FVec Ideal S50000x128 .f32 :=
  Cert.Spec.linear x0 (transpose S128x128 [1, 0] w3 transposes_S128x128_S128x128_1_0) (shapeCast S1x128 b4 shapeCasts_S128_S1x128)

/-- The edge layer: a linear layer with bias of the edge features. -/
def edgeLayer (x1 : FVec Ideal S600000x128 .f32) (w5 : FVec Ideal S128x128 .f32) (b6 : FVec Ideal S128 .f32) :
    FVec Ideal S600000x128 .f32 :=
  Cert.Spec.linear x1 (transpose S128x128 [1, 0] w5 transposes_S128x128_S128x128_1_0) (shapeCast S1x128 b6 shapeCasts_S128_S1x128)

/-- The layer's result: gather the node layer at both endpoints of every edge, form the messages, add them up at
    the target endpoints, take the positive part. -/
def result (x0 : FVec Ideal S50000x128 .f32) (x1 : FVec Ideal S600000x128 .f32) (ei : IVec S600000x2 32)
    (w3 : FVec Ideal S128x128 .f32) (b4 : FVec Ideal S128 .f32) (w5 : FVec Ideal S128x128 .f32) (b6 : FVec Ideal S128 .f32) :
    FVec Ideal S50000x128 .f32 :=
  Cert.Spec.positivePart
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 (dstCol ei))
      (Cert.Spec.message
        (Host.gather gather_S50000x128_S600000x1_S600000x128_1_0_n_n_0_1_1128 (nodeLayer x0 w3 b4) (wrapIdx (srcCol ei)))
        (edgeLayer x1 w5 b6)
        (Host.gather gather_S50000x128_S600000x1_S600000x128_1_0_n_n_0_1_1128 (nodeLayer x0 w3 b4) (wrapIdx (dstCol ei)))))

variable (m : (ℓ : Loc nD τ sig) → Buf (Elt Ideal) ℓ) (ρ : Dev nD → PrngReg)

/-- The last boundary's contents at the result buffer, on an edge list of node numbers. -/
theorem value (c : Dev nD) (h : IsNode (m ((c : Thread nD τ).loc main_arg2))) :
    W9 m ρ c (Proc.devRef .tc main_v15)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Chain.W9_v15, Region2.value (V8 m ρ) c]
  dsimp only [V8]
  rw [Chain.W8_v14, Chain.W7_v7, Chain.W7_v11, Region1.value (V6 m ρ) c]
  dsimp only [V6]
  rw [Chain.W6_v8, Chain.W6_v9, Chain.W6_arg1, Chain.W6_v1, Chain.W6_v10, Chain.W2_v3, Region0.value (V1 m ρ) c]
  dsimp only [V1]
  rw [Chain.W1_arg0, Chain.W1_v0, Chain.W1_v2,
    takeRows_eq_gather _ _ (isNode_srcCol _ h), takeRows_eq_gather _ _ (isNode_dstCol _ h)]
  rfl

end Cert.KernelIdeal.KernelValue

end
-- ==== Proof.RefValue.lean ====
/-
  The reference program's stages, read element by element on the extended reals, are the specification's three
  functions.

  * Its node layer `obj_vecs @ W_obj.T + b_obj` and its edge layer `rel_vecs @ W_rel.T + b_rel` are `Spec.linear` of the
    features, the transposed weight and the bias laid out as one row: the product's entry is the sum over the 128 shared
    coordinates of row times column, and the broadcast bias contributes its entry in that column.
  * Its message `relu (source + edge + target)` is `Spec.message`: the same two additions in the same order, and the
    outlined relu is the maximum with the zero array, whose every entry is the real number 0.
  * Its final relu is `Spec.positivePart`.
-/
import proofs.«420025_j91104846283471_1_alg».proof.Proof.Gen.ReferenceIdeal.Run
import proofs.«420025_j91104846283471_1_alg».proof.Proof.Gen.ReferenceIdeal.Read
import proofs.«420025_j91104846283471_1_alg».proof.Proof.Gen.KernelIdeal
import proofs.«420025_j91104846283471_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic

/-- The node layer is the specification's linear layer of the node features, the transposed node weight and the
    node bias as one row. -/
theorem node_linear (x0 : FVec Ideal S50000x128 .f32) (x3 : FVec Ideal S128x128 .f32) (x4 : FVec Ideal S128 .f32) :
    val_main_v4 (F := Ideal) x0 x3 x4
      = Cert.Spec.linear x0 (transpose S128x128 [1, 0] x3 transposes_S128x128_S128x128_1_0)
          (shapeCast S1x128 x4 Cert.KernelIdeal.Gen.shapeCasts_S128_S1x128) := by
  funext i
  have el : ∀ k : Fin 128, lidx_main_v1 i k = ValueIdx.ix2 (i 0) k := fun k =>
    funext fun a => Fin.ext (by match a with | ⟨0, _⟩ => rfl | ⟨1, _⟩ => rfl)
  have er : ∀ k : Fin 128, ridx_main_v1 i k = ValueIdx.ix2 k (i 1) := fun k =>
    funext fun a => Fin.ext (by match a with | ⟨0, _⟩ => rfl | ⟨1, _⟩ => rfl)
  have eb : shapeCast S1x128 x4 Cert.KernelIdeal.Gen.shapeCasts_S128_S1x128 (ValueIdx.ix2 (0 : Fin 1) (i 1))
      = x4 (idx_main_v2 (idx_main_v3 i)) :=
    shapeCast_apply x4 Cert.KernelIdeal.Gen.shapeCasts_S128_S1x128 (ValueIdx.ix2 (0 : Fin 1) (i 1)) (idx_main_v2 (idx_main_v3 i))
      (by rewrite [Shape.rowMajor_val_one, Shape.rowMajor_val_two]; show (i 1).val = 0 * 128 + (i 1).val; omega)
  rw [val_main_v4_apply, val_main_v1_apply, val_main_v3_apply, val_main_v2_apply]
  unfold val_main_v0 Cert.Spec.linear
  show _ + _ = _ + _
  refine congrArg₂ (· + ·) (Finset.sum_congr rfl fun k _ => ?_) eb.symm
  rw [el, er]
  rfl

/-- The edge layer is the specification's linear layer of the edge features, the transposed edge weight and the
    edge bias as one row. -/
theorem edge_linear (x1 : FVec Ideal S600000x128 .f32) (x5 : FVec Ideal S128x128 .f32) (x6 : FVec Ideal S128 .f32) :
    val_main_v9 (F := Ideal) x1 x5 x6
      = Cert.Spec.linear x1 (transpose S128x128 [1, 0] x5 transposes_S128x128_S128x128_1_0)
          (shapeCast S1x128 x6 Cert.KernelIdeal.Gen.shapeCasts_S128_S1x128) := by
  funext i
  have el : ∀ k : Fin 128, lidx_main_v6 i k = ValueIdx.ix2 (i 0) k := fun k =>
    funext fun a => Fin.ext (by match a with | ⟨0, _⟩ => rfl | ⟨1, _⟩ => rfl)
  have er : ∀ k : Fin 128, ridx_main_v6 i k = ValueIdx.ix2 k (i 1) := fun k =>
    funext fun a => Fin.ext (by match a with | ⟨0, _⟩ => rfl | ⟨1, _⟩ => rfl)
  have eb : shapeCast S1x128 x6 Cert.KernelIdeal.Gen.shapeCasts_S128_S1x128 (ValueIdx.ix2 (0 : Fin 1) (i 1))
      = x6 (idx_main_v7 (idx_main_v8 i)) :=
    shapeCast_apply x6 Cert.KernelIdeal.Gen.shapeCasts_S128_S1x128 (ValueIdx.ix2 (0 : Fin 1) (i 1)) (idx_main_v7 (idx_main_v8 i))
      (by rewrite [Shape.rowMajor_val_one, Shape.rowMajor_val_two]; show (i 1).val = 0 * 128 + (i 1).val; omega)
  rw [val_main_v9_apply, val_main_v6_apply, val_main_v8_apply, val_main_v7_apply]
  unfold val_main_v5 Cert.Spec.linear
  show _ + _ = _ + _
  refine congrArg₂ (· + ·) (Finset.sum_congr rfl fun k _ => ?_) eb.symm
  rw [el, er]
  rfl

/-- Source plus edge term plus target, then the outlined relu: the specification's message. -/
theorem messages (s L d : FVec Ideal S600000x128 .f32) :
    maximumf (addf (addf s L) d) (val_main_call0_v0 (F := Ideal)) = Cert.Spec.message s L d := by
  funext i
  show max ((s i + L i) + d i) (val_main_call0_v0 (F := Ideal) i) = max ((s i + L i) + d i) 0
  rw [val_main_call0_v0_apply, val_main_call0_cst_apply]
  show max _ (Ideal.ofBits .f32 0x00000000#32) = _
  rw [Ideal.ofBits_zero_f32]

/-- The outlined relu over the node rows: the specification's positive part. -/
theorem positive (a : FVec Ideal S50000x128 .f32) :
    maximumf a (val_main_call1_v0 (F := Ideal)) = Cert.Spec.positivePart a := by
  funext i
  show max (a i) (val_main_call1_v0 (F := Ideal) i) = max (a i) 0
  rw [val_main_call1_v0_apply, val_main_call1_cst_apply]
  show max _ (Ideal.ofBits .f32 0x00000000#32) = _
  rw [Ideal.ofBits_zero_f32]

end Cert.ReferenceIdeal.RefValue

end
-- ==== Proof.RefResult.lean ====
/-
  The reference program's result, stage by stage, is the kernel program's result function of the same seven arrays.

  Its last stage is the outlined relu of the scatter-add, at the target endpoints, of the outlined relu of
  (node layer gathered at the wrapped source endpoints + edge layer + node layer gathered at the wrapped target
  endpoints): with the four readings of `RefValue` this is `KernelValue.result` term for term — the same zero array,
  the same endpoint columns, the same wrap of negative words, the same gather and scatter dimensions.
-/
import proofs.«420025_j91104846283471_1_alg».proof.Proof.RefValue
import proofs.«420025_j91104846283471_1_alg».proof.Proof.KernelValue

set_option maxRecDepth 16384

noncomputable section

namespace Cert.ReferenceIdeal.RefResult

open Cert.ReferenceIdeal Cert.ReferenceIdeal.Gen Cert.ReferenceIdeal.Read Idealize.ShloMosaic

/-- The reference's result array is the kernel program's result function of the arguments. -/
theorem result_eq (x0 : FVec Ideal S50000x128 .f32) (x1 : FVec Ideal S600000x128 .f32) (ei : IVec S600000x2 32)
    (w3 : FVec Ideal S128x128 .f32) (b4 : FVec Ideal S128 .f32) (w5 : FVec Ideal S128x128 .f32) (b6 : FVec Ideal S128 .f32) :
    val_main_v34 (F := Ideal) x0 x1 ei w3 b4 w5 b6 = Cert.KernelIdeal.KernelValue.result x0 x1 ei w3 b4 w5 b6 := by
  unfold val_main_v34 val_main_v33 val_main_v30 val_main_v29 val_main_v21 val_main_v20 val_main_v28
  rw [RefValue.positive, RefValue.messages, RefValue.node_linear, RefValue.edge_linear]
  rfl

end Cert.ReferenceIdeal.RefResult

end
-- ==== Proof.lean ====
/-
  A graph message-passing layer, tiled, against its plain formulation: equal on the extended reals, on finite
  features and an edge list of node numbers.

  Both programs compute, for 50000 nodes, 600000 edges and width 128,
      out = relu (Σ over edges e into node n of relu (lin_obj(x[src e]) + lin_rel(r[e]) + lin_obj(x[dst e]))),
  with `lin_obj`, `lin_rel` linear layers with bias. The kernel program runs three tiled regions — the node layer in
  ten row blocks, the messages in a hundred row blocks, the final relu in ten — with the row lookups and the
  scatter-add between them as host operations; the reference is host operations only. On the extended reals a change of
  float format is the identity and a matrix product is the sum over the shared coordinate whatever the tiling, so each
  region's array is the specification's function of the arrays it reads (`Region0`, `Region1`, `Region2`), and so is
  each stage of the reference (`RefValue`). The one place the two differ as written is the row lookup: the kernel
  program fills rows whose endpoint is out of range with a fixed pattern, the reference clamps. The precondition
  says every endpoint is a node number, 0 … 49999 (`Take.isNode_of_pre`), and there both are the plain gather
  (`Take.takeRows_eq_gather`). No law of the extended reals beyond the two sides being the same term is used, so
  the finiteness of the features is not.

  The frames are the generated ones (the reference's is its generated run with the result dropped); the ideal pass
  rewrote nothing, so `preserves` is trivial.
-/
import proofs.«420025_j91104846283471_1_alg».proof.Defs
import proofs.«420025_j91104846283471_1_alg».proof.Proof.Gen.Kernel
import proofs.«420025_j91104846283471_1_alg».proof.Proof.Gen.Kernel.Frame
import proofs.«420025_j91104846283471_1_alg».proof.Proof.Gen.KernelIdeal
import proofs.«420025_j91104846283471_1_alg».proof.Proof.Gen.KernelIdeal.Frame
import proofs.«420025_j91104846283471_1_alg».proof.Proof.Gen.ReferenceIdeal
import proofs.«420025_j91104846283471_1_alg».proof.Proof.Gen.ReferenceIdeal.Run
import proofs.«420025_j91104846283471_1_alg».proof.Proof.Gen.ReferenceIdeal.Read
import proofs.«420025_j91104846283471_1_alg».proof.Proof.Gen.Pre_finite_inputs
import proofs.«420025_j91104846283471_1_alg».proof.Proof.RunValue
import proofs.«420025_j91104846283471_1_alg».proof.Proof.KernelValue
import proofs.«420025_j91104846283471_1_alg».proof.Proof.RefResult
import proofs.«420025_j91104846283471_1_alg».proof.Proof.Take
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both programs end with the result array at `KernelValue.result` of the arguments: the kernel program by its run read
    back through the regions, where the precondition makes every row lookup a plain gather; the reference by its run,
    read stage by stage. -/
theorem algebraic : Cert.algebraic_KernelIdeal_ReferenceIdeal := by
  intro m ρ m' ρ' hpre hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.value m ρ c
          (Cert.KernelIdeal.Take.isNode_of_pre _ _ _ _ _ _ _ (hpre c))), (h c).2⟩)
      (Cert.KernelIdeal.RunValue.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1,
      (hagree c).2.2.2.2.1, (hagree c).2.2.2.2.2.1, (hagree c).2.2.2.2.2.2]
    exact Cert.ReferenceIdeal.RefResult.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
